-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x625000 32) (main_arg2 : IVec S50000 32) (main_arg3 : FVec F S128x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000x128 : Shape := ⟨2, ![50000, 128]⟩
abbrev S2x625000 : Shape := ⟨2, ![2, 625000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x625000 : Shape := ⟨2, ![1, 625000]⟩
abbrev S625000 : Shape := ⟨1, ![625000]⟩
abbrev S675000 : Shape := ⟨1, ![675000]⟩
abbrev S_ : Shape := ⟨0, ![]⟩
abbrev S675000x1 : Shape := ⟨2, ![675000, 1]⟩
abbrev S50000x256 : Shape := ⟨2, ![50000, 256]⟩
abbrev S2000x128 : Shape := ⟨2, ![2000, 128]⟩
abbrev S2000x256 : Shape := ⟨2, ![2000, 256]⟩
abbrev S675000x256 : Shape := ⟨2, ![675000, 256]⟩
abbrev S1x256 : Shape := ⟨2, ![1, 256]⟩
abbrev S675000x128 : Shape := ⟨2, ![675000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 101
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S1x625000, .i32⟩
  | .hbm, ⟨9, _⟩ => ⟨S625000, .i32⟩
  | .hbm, ⟨10, _⟩ => ⟨S675000, .i32⟩
  | .hbm, ⟨11, _⟩ => ⟨S1x625000, .i32⟩
  | .hbm, ⟨12, _⟩ => ⟨S625000, .i32⟩
  | .hbm, ⟨13, _⟩ => ⟨S675000, .i32⟩
  | .hbm, ⟨14, _⟩ => ⟨S_, .f32⟩
  | .hbm, ⟨15, _⟩ => ⟨S675000, .f32⟩
  | .hbm, ⟨16, _⟩ => ⟨S_, .f32⟩
  | .hbm, ⟨17, _⟩ => ⟨S50000, .f32⟩
  | .hbm, ⟨18, _⟩ => ⟨S675000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S675000, .i32⟩
  | .hbm, ⟨30, _⟩ => ⟨S675000, .i1⟩
  | .hbm, ⟨31, _⟩ => ⟨S_, .i32⟩
  | .hbm, ⟨32, _⟩ => ⟨S675000, .i32⟩
  | .hbm, ⟨33, _⟩ => ⟨S675000, .i32⟩
  | .hbm, ⟨34, _⟩ => ⟨S675000, .i32⟩
  | .hbm, ⟨35, _⟩ => ⟨S675000x1, .i32⟩
  | .hbm, ⟨36, _⟩ => ⟨S675000, .f32⟩
  | .hbm, ⟨37, _⟩ => ⟨S_, .i32⟩
  | .hbm, ⟨38, _⟩ => ⟨S675000, .i32⟩
  | .hbm, ⟨39, _⟩ => ⟨S675000, .i1⟩
  | .hbm, ⟨40, _⟩ => ⟨S_, .i32⟩
  | .hbm, ⟨41, _⟩ => ⟨S675000, .i32⟩
  | .hbm, ⟨42, _⟩ => ⟨S675000, .i32⟩
  | .hbm, ⟨43, _⟩ => ⟨S675000, .i32⟩
  | .hbm, ⟨44, _⟩ => ⟨S675000x1, .i32⟩
  | .hbm, ⟨45, _⟩ => ⟨S675000, .f32⟩
  | .hbm, ⟨46, _⟩ => ⟨S675000, .f32⟩
  | .hbm, ⟨47, _⟩ => ⟨S50000x256, .f32⟩
  | .hbm, ⟨48, _⟩ => ⟨S_, .i32⟩
  | .hbm, ⟨49, _⟩ => ⟨S675000, .i32⟩
  | .hbm, ⟨50, _⟩ => ⟨S675000, .i1⟩
  | .hbm, ⟨51, _⟩ => ⟨S_, .i32⟩
  | .hbm, ⟨52, _⟩ => ⟨S675000, .i32⟩
  | .hbm, ⟨53, _⟩ => ⟨S675000, .i32⟩
  | .hbm, ⟨54, _⟩ => ⟨S675000, .i32⟩
  | .hbm, ⟨55, _⟩ => ⟨S675000x1, .i32⟩
  | .hbm, ⟨56, _⟩ => ⟨S675000x256, .f32⟩
  | .hbm, ⟨57, _⟩ => ⟨S675000x1, .f32⟩
  | .hbm, ⟨58, _⟩ => ⟨S675000x256, .f32⟩
  | .hbm, ⟨59, _⟩ => ⟨S675000x256, .f32⟩
  | .hbm, ⟨60, _⟩ => ⟨S_, .f32⟩
  | .hbm, ⟨61, _⟩ => ⟨S50000x256, .f32⟩
  | .hbm, ⟨62, _⟩ => ⟨S675000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x128, .f32⟩
  | .hbm, ⟨67, _⟩ => ⟨S_, .i32⟩
  | .hbm, ⟨68, _⟩ => ⟨S675000, .i32⟩
  | .hbm, ⟨69, _⟩ => ⟨S675000, .i1⟩
  | .hbm, ⟨70, _⟩ => ⟨S_, .i32⟩
  | .hbm, ⟨71, _⟩ => ⟨S675000, .i32⟩
  | .hbm, ⟨72, _⟩ => ⟨S675000, .i32⟩
  | .hbm, ⟨73, _⟩ => ⟨S675000, .i32⟩
  | .hbm, ⟨74, _⟩ => ⟨S675000x1, .i32⟩
  | .hbm, ⟨75, _⟩ => ⟨S675000x128, .f32⟩
  | .hbm, ⟨76, _⟩ => ⟨S675000x1, .f32⟩
  | .hbm, ⟨77, _⟩ => ⟨S675000x128, .f32⟩
  | .hbm, ⟨78, _⟩ => ⟨S675000x128, .f32⟩
  | .hbm, ⟨79, _⟩ => ⟨S_, .f32⟩
  | .hbm, ⟨80, _⟩ => ⟨S50000x128, .f32⟩
  | .hbm, ⟨81, _⟩ => ⟨S675000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S_, .f32⟩
  | .hbm, ⟨86, _⟩ => ⟨S64x128, .f32⟩
  | .hbm, ⟨87, _⟩ => ⟨S50000x1, .i32⟩
  | .hbm, ⟨88, _⟩ => ⟨S64x128, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S64, .f32⟩
  | .hbm, ⟨93, _⟩ => ⟨S50000x1, .i32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x128, .f32⟩
  | .hbm, ⟨100, _⟩ => ⟨S64x128, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x625000_S1x625000_0_0 : S2x625000.Slices ![0, 0] S1x625000
  shapeCasts_S1x625000_S625000 : S1x625000.ShapeCasts S625000
  concatenates_S625000_S50000_S675000_d0 : Shape.Concatenates [S625000, S50000] S675000 0
  slices_S2x625000_S1x625000_1_0 : S2x625000.Slices ![1, 0] S1x625000
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S675000x1_S675000x256_0_1 : S675000x1.BroadcastsInDim S675000x256 (![0, 1] : Fin 2 → Fin S675000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S2000x128_S128x256_S2000x256_1_0_0_1_n_n_wf : DotDims.WF S2000x128 S128x256 S2000x256 [1] [0] [0] [1] [] []
  gather_S50000x256_S675000x1_S675000x256_1_0_n_n_0_1_1256_wf : GatherDims.WF S50000x256 S675000x1 S675000x256 [1] [0] [] [0] [] 1 ![1, 256]
  scatter_S50000x256_S675000x1_S675000x256_1_0_0_1_wf : ScatterDims.WF S50000x256 S675000x1 S675000x256 [1] [0] [0] 1
  dot_S2000x256_S256x128_S2000x128_1_0_0_1_n_n_wf : DotDims.WF S2000x256 S256x128 S2000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S675000x1_S675000x256_1_0_n_n_0_1_1256 : GatherDims S50000x256 S675000x1 S675000x256 where
  offsetDims := [1]
  collapsedSliceDims := [0]
  operandBatchingDims := []
  startIndicesBatchingDims := []
  startIndexMap := [0]
  indexVectorDim := 1
  sliceSizes := ![1, 256]
  wf := gather_S50000x256_S675000x1_S675000x256_1_0_n_n_0_1_1256_wf
def scatter_S50000x256_S675000x1_S675000x256_1_0_0_1 : ScatterDims S50000x256 S675000x1 S675000x256 where
  updateWindowDims := [1]
  insertedWindowDims := [0]
  scatterDimsToOperandDims := [0]
  indexVectorDim := 1
  wf := scatter_S50000x256_S675000x1_S675000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x625000 : Shape := ⟨2, ![1, 625000]⟩
abbrev S625000 : Shape := ⟨1, ![625000]⟩
abbrev S675000 : Shape := ⟨1, ![675000]⟩
abbrev S_ : Shape := ⟨0, ![]⟩
abbrev S675000x1 : Shape := ⟨2, ![675000, 1]⟩
abbrev S50000x256 : Shape := ⟨2, ![50000, 256]⟩
abbrev S675000x256 : Shape := ⟨2, ![675000, 256]⟩
abbrev S1x256 : Shape := ⟨2, ![1, 256]⟩
abbrev S675000x128 : Shape := ⟨2, ![675000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S1x625000, .i32⟩
  | .hbm, ⟨9, _⟩ => ⟨S625000, .i32⟩
  | .hbm, ⟨10, _⟩ => ⟨S675000, .i32⟩
  | .hbm, ⟨11, _⟩ => ⟨S1x625000, .i32⟩
  | .hbm, ⟨12, _⟩ => ⟨S625000, .i32⟩
  | .hbm, ⟨13, _⟩ => ⟨S675000, .i32⟩
  | .hbm, ⟨14, _⟩ => ⟨S_, .f32⟩
  | .hbm, ⟨15, _⟩ => ⟨S675000, .f32⟩
  | .hbm, ⟨16, _⟩ => ⟨S_, .f32⟩
  | .hbm, ⟨17, _⟩ => ⟨S50000, .f32⟩
  | .hbm, ⟨18, _⟩ => ⟨S675000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S675000, .i32⟩
  | .hbm, ⟨30, _⟩ => ⟨S675000, .i1⟩
  | .hbm, ⟨31, _⟩ => ⟨S_, .i32⟩
  | .hbm, ⟨32, _⟩ => ⟨S675000, .i32⟩
  | .hbm, ⟨33, _⟩ => ⟨S675000, .i32⟩
  | .hbm, ⟨34, _⟩ => ⟨S675000, .i32⟩
  | .hbm, ⟨35, _⟩ => ⟨S675000x1, .i32⟩
  | .hbm, ⟨36, _⟩ => ⟨S675000, .f32⟩
  | .hbm, ⟨37, _⟩ => ⟨S_, .i32⟩
  | .hbm, ⟨38, _⟩ => ⟨S675000, .i32⟩
  | .hbm, ⟨39, _⟩ => ⟨S675000, .i1⟩
  | .hbm, ⟨40, _⟩ => ⟨S_, .i32⟩
  | .hbm, ⟨41, _⟩ => ⟨S675000, .i32⟩
  | .hbm, ⟨42, _⟩ => ⟨S675000, .i32⟩
  | .hbm, ⟨43, _⟩ => ⟨S675000, .i32⟩
  | .hbm, ⟨44, _⟩ => ⟨S675000x1, .i32⟩
  | .hbm, ⟨45, _⟩ => ⟨S675000, .f32⟩
  | .hbm, ⟨46, _⟩ => ⟨S675000, .f32⟩
  | .hbm, ⟨47, _⟩ => ⟨S50000x256, .f32⟩
  | .hbm, ⟨48, _⟩ => ⟨S_, .i32⟩
  | .hbm, ⟨49, _⟩ => ⟨S675000, .i32⟩
  | .hbm, ⟨50, _⟩ => ⟨S675000, .i1⟩
  | .hbm, ⟨51, _⟩ => ⟨S_, .i32⟩
  | .hbm, ⟨52, _⟩ => ⟨S675000, .i32⟩
  | .hbm, ⟨53, _⟩ => ⟨S675000, .i32⟩
  | .hbm, ⟨54, _⟩ => ⟨S675000, .i32⟩
  | .hbm, ⟨55, _⟩ => ⟨S675000x1, .i32⟩
  | .hbm, ⟨56, _⟩ => ⟨S675000x256, .f32⟩
  | .hbm, ⟨57, _⟩ => ⟨S675000x1, .f32⟩
  | .hbm, ⟨58, _⟩ => ⟨S675000x256, .f32⟩
  | .hbm, ⟨59, _⟩ => ⟨S675000x256, .f32⟩
  | .hbm, ⟨60, _⟩ => ⟨S_, .f32⟩
  | .hbm, ⟨61, _⟩ => ⟨S50000x256, .f32⟩
  | .hbm, ⟨62, _⟩ => ⟨S675000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x128, .f32⟩
  | .hbm, ⟨71, _⟩ => ⟨S_, .i32⟩
  | .hbm, ⟨72, _⟩ => ⟨S675000, .i32⟩
  | .hbm, ⟨73, _⟩ => ⟨S675000, .i1⟩
  | .hbm, ⟨74, _⟩ => ⟨S_, .i32⟩
  | .hbm, ⟨75, _⟩ => ⟨S675000, .i32⟩
  | .hbm, ⟨76, _⟩ => ⟨S675000, .i32⟩
  | .hbm, ⟨77, _⟩ => ⟨S675000, .i32⟩
  | .hbm, ⟨78, _⟩ => ⟨S675000x1, .i32⟩
  | .hbm, ⟨79, _⟩ => ⟨S675000x128, .f32⟩
  | .hbm, ⟨80, _⟩ => ⟨S675000x1, .f32⟩
  | .hbm, ⟨81, _⟩ => ⟨S675000x128, .f32⟩
  | .hbm, ⟨82, _⟩ => ⟨S675000x128, .f32⟩
  | .hbm, ⟨83, _⟩ => ⟨S_, .f32⟩
  | .hbm, ⟨84, _⟩ => ⟨S50000x128, .f32⟩
  | .hbm, ⟨85, _⟩ => ⟨S675000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S64x128, .f32⟩
  | .hbm, ⟨95, _⟩ => ⟨S50000x1, .i32⟩
  | .hbm, ⟨96, _⟩ => ⟨S64x128, .f32⟩
  | .hbm, ⟨97, _⟩ => ⟨S_, .f32⟩
  | .hbm, ⟨98, _⟩ => ⟨S50000, .f32⟩
  | .hbm, ⟨99, _⟩ => ⟨S_, .f32⟩
  | .hbm, ⟨100, _⟩ => ⟨S64, .f32⟩
  | .hbm, ⟨101, _⟩ => ⟨S50000x1, .i32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x128, .f32⟩
  | .hbm, ⟨108, _⟩ => ⟨S64x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  concatenates_S625000_S50000_S675000_d0 : Shape.Concatenates [S625000, S50000] S675000 0
  slices_S2x625000_S1x625000_1_0 : S2x625000.Slices ![1, 0] S1x625000
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  bcast_S675000x1_S675000x256_0_1 : S675000x1.BroadcastsInDim S675000x256 (![0, 1] : Fin 2 → Fin S675000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S50000x128_S128x256_S50000x256_1_0_0_1_n_n_wf : DotDims.WF S50000x128 S128x256 S50000x256 [1] [0] [0] [1] [] []
  gather_S50000x256_S675000x1_S675000x256_1_0_n_n_0_1_1256_wf : GatherDims.WF S50000x256 S675000x1 S675000x256 [1] [0] [] [0] [] 1 ![1, 256]
  scatter_S50000x256_S675000x1_S675000x256_1_0_0_1_wf : ScatterDims.WF S50000x256 S675000x1 S675000x256 [1] [0] [0] 1
  dot_S50000x256_S256x128_S50000x128_1_0_0_1_n_n_wf : DotDims.WF S50000x256 S256x128 S50000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S675000x1_S675000x256_1_0_n_n_0_1_1256 : GatherDims S50000x256 S675000x1 S675000x256 where
  offsetDims := [1]
  collapsedSliceDims := [0]
  operandBatchingDims := []
  startIndicesBatchingDims := []
  startIndexMap := [0]
  indexVectorDim := 1
  sliceSizes := ![1, 256]
  wf := gather_S50000x256_S675000x1_S675000x256_1_0_n_n_0_1_1256_wf
def scatter_S50000x256_S675000x1_S675000x256_1_0_0_1 : ScatterDims S50000x256 S675000x1 S675000x256 where
  updateWindowDims := [1]
  insertedWindowDims := [0]
  scatterDimsToOperandDims := [0]
  indexVectorDim := 1
  wf := scatter_S50000x256_S675000x1_S675000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.HostStretches.lean ====
import proofs.«162527_j41489384080024_1_alg».proof.Proof.Gen.KernelIdeal.Frame
import proofs.«162527_j41489384080024_1_alg».proof.Proof.RefReadP
import Idealize.ShloMosaic.Lib.StableHlo.Run

/-! The host stretches of the kernel's program, one at a time and for any float family: each stretch applies to the
    buffers it finds the very operations the reference applies, so a result of the stretch is the reference's stage
    function as soon as the buffers the stretch reads are. A buffer no operation of a stretch writes is left as found. -/

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen Cert.ReferenceIdeal.ReadP

variable {F : FTy → Type} [FloatOps F]

/-- A buffer that no operation of a literal list writes holds after the list what it held before. -/
macro "unwritten" : tactic => `(tactic| (
  refine StableHlo.after_of_forall_not_mem (b := _) _ _ (List.forall_iff_forall_mem.mp ?_)
  simp only [hostOps0, hostOps0_1, hostOps0_2, hostOps1, hostOps3, hostOps4, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The closing step of a stretch's result: the operations' composed term is the reference's stage, by unfolding. -/
macro "stage_rfl" : tactic => `(tactic| (first | rfl | (simp only [StableHlo.TRef.ofBuf, StableHlo.TRef.toBuf, cast_eq]; rfl)))

variable (W : Valuation τ sig (Elt F))

/-! ## The first stretch: the edge lists with the self-loops appended, the degrees, their inverse square roots -/

theorem first_src : StableHlo.after (hostOps0 (F := F)) W (Proc.devRef .tc main_v3) = val_main_v3 (W (Proc.devRef .tc main_arg1)) := by
  simp only [hostOps0]; after_results_simp; stage_rfl

theorem first_dst : StableHlo.after (hostOps0 (F := F)) W (Proc.devRef .tc main_v6) = val_main_v6 (W (Proc.devRef .tc main_arg1)) := by
  simp only [hostOps0]; after_results_simp; stage_rfl

theorem first_pos : StableHlo.after (hostOps0 (F := F)) W (Proc.devRef .tc main_v12) = val_main_v12 (W (Proc.devRef .tc main_arg1)) := by
  simp only [hostOps0]; after_results_simp; stage_rfl

theorem first_rsqrt : StableHlo.after (hostOps0 (F := F)) W (Proc.devRef .tc main_v13) = val_main_v13 (W (Proc.devRef .tc main_arg1)) := by
  simp only [hostOps0]; after_results_simp; stage_rfl

theorem first_zero : StableHlo.after (hostOps0 (F := F)) W (Proc.devRef .tc main_cst_2) = val_main_cst_2 := by
  simp only [hostOps0]; after_results_simp; stage_rfl

/-! ## The select between the inverse square root and zero -/

theorem where_dinv (x1 : (⟨Cert.ReferenceIdeal.S2x625000, .i32⟩ : BufTy).Contents (Elt F))
    (h12 : W (Proc.devRef .tc main_v12) = val_main_v12 x1) (h13 : W (Proc.devRef .tc main_v13) = val_main_v13 x1)
    (hz : W (Proc.devRef .tc main_cst_2) = val_main_cst_2) :
    StableHlo.after (hostOps0_1 (F := F)) W (Proc.devRef .tc main_v14) = val_main_v14 x1 := by
  simp only [hostOps0_1]; after_results_simp
  simp only [StableHlo.TRef.ofBuf, StableHlo.TRef.toBuf, cast_eq]
  rw [h12, h13, hz]; rfl

/-! ## The edge weights: the two gathers of the inverse square roots, multiplied -/

theorem norm_stage (x1 : (⟨Cert.ReferenceIdeal.S2x625000, .i32⟩ : BufTy).Contents (Elt F))
    (h3 : W (Proc.devRef .tc main_v3) = val_main_v3 x1) (h6 : W (Proc.devRef .tc main_v6) = val_main_v6 x1)
    (h14 : W (Proc.devRef .tc main_v14) = val_main_v14 x1) :
    StableHlo.after (hostOps0_2 (F := F)) W (Proc.devRef .tc main_v29) = val_main_v29 x1 := by
  simp only [hostOps0_2]; after_results_simp
  rw [h3, h6, h14]; stage_rfl

/-! ## The first propagation: gather the rows of the product at the sources, scale, sum into the destinations -/

theorem agg1_stage (x0 : (⟨Cert.ReferenceIdeal.S50000x128, .f32⟩ : BufTy).Contents (Elt F)) (x1 : (⟨Cert.ReferenceIdeal.S2x625000, .i32⟩ : BufTy).Contents (Elt F))
    (x3 : (⟨Cert.ReferenceIdeal.S128x256, .f32⟩ : BufTy).Contents (Elt F))
    (h3 : W (Proc.devRef .tc main_v3) = val_main_v3 x1) (h6 : W (Proc.devRef .tc main_v6) = val_main_v6 x1)
    (h29 : W (Proc.devRef .tc main_v29) = val_main_v29 x1) (h30 : W (Proc.devRef .tc main_v30) = val_main_v30 x0 x3) :
    StableHlo.after (hostOps1 (F := F)) W (Proc.devRef .tc main_v43) = val_main_v43 x0 x1 x3 := by
  simp only [hostOps1]; after_results_simp
  rw [h3, h6, h29, h30]; stage_rfl

/-- The bias of the first layer as the stretch leaves it: the vector reshaped to one row. -/
theorem row1_stage : StableHlo.after (hostOps1 (F := F)) W (Proc.devRef .tc main_v44)
    = shapeCast S1x256 (W (Proc.devRef .tc main_arg4)) shapeCasts_S256_S1x256 := by
  simp only [hostOps1]; after_results_simp; stage_rfl

/-! ## The second propagation -/

theorem agg2_stage (x0 : (⟨Cert.ReferenceIdeal.S50000x128, .f32⟩ : BufTy).Contents (Elt F)) (x1 : (⟨Cert.ReferenceIdeal.S2x625000, .i32⟩ : BufTy).Contents (Elt F))
    (x3 : (⟨Cert.ReferenceIdeal.S128x256, .f32⟩ : BufTy).Contents (Elt F)) (x4 : (⟨Cert.ReferenceIdeal.S256, .f32⟩ : BufTy).Contents (Elt F))
    (x5 : (⟨Cert.ReferenceIdeal.S256x128, .f32⟩ : BufTy).Contents (Elt F))
    (h3 : W (Proc.devRef .tc main_v3) = val_main_v3 x1) (h6 : W (Proc.devRef .tc main_v6) = val_main_v6 x1)
    (h29 : W (Proc.devRef .tc main_v29) = val_main_v29 x1) (h46 : W (Proc.devRef .tc main_v46) = val_main_v48 x0 x1 x3 x4 x5) :
    StableHlo.after (hostOps3 (F := F)) W (Proc.devRef .tc main_v59) = val_main_v61 x0 x1 x3 x4 x5 := by
  simp only [hostOps3]; after_results_simp
  rw [h3, h6, h29, h46]; stage_rfl

/-- The bias of the second layer as the stretch leaves it: the vector reshaped to one row. -/
theorem row2_stage : StableHlo.after (hostOps3 (F := F)) W (Proc.devRef .tc main_v60)
    = shapeCast S1x128 (W (Proc.devRef .tc main_arg6)) shapeCasts_S128_S1x128 := by
  simp only [hostOps3]; after_results_simp; stage_rfl

/-! ## The mean pool: the rows summed per graph, divided by the graph's size or one -/

theorem pool_stage (x0 : (⟨Cert.ReferenceIdeal.S50000x128, .f32⟩ : BufTy).Contents (Elt F)) (x1 : (⟨Cert.ReferenceIdeal.S2x625000, .i32⟩ : BufTy).Contents (Elt F))
    (x2 : (⟨Cert.ReferenceIdeal.S50000, .i32⟩ : BufTy).Contents (Elt F))
    (x3 : (⟨Cert.ReferenceIdeal.S128x256, .f32⟩ : BufTy).Contents (Elt F)) (x4 : (⟨Cert.ReferenceIdeal.S256, .f32⟩ : BufTy).Contents (Elt F))
    (x5 : (⟨Cert.ReferenceIdeal.S256x128, .f32⟩ : BufTy).Contents (Elt F)) (x6 : (⟨Cert.ReferenceIdeal.S128, .f32⟩ : BufTy).Contents (Elt F))
    (h2 : W (Proc.devRef .tc main_arg2) = x2) (h61 : W (Proc.devRef .tc main_v61) = val_main_v65 x0 x1 x3 x4 x5 x6) :
    StableHlo.after (hostOps4 (F := F)) W (Proc.devRef .tc main_v73) = val_main_v77 x0 x1 x2 x3 x4 x5 x6 := by
  simp only [hostOps4]; after_results_simp
  rw [h2, h61]; stage_rfl

/-! ## The two layers' bias-and-ReLU in the reference's spelling -/

theorem relu1_stage (x0 : (⟨Cert.ReferenceIdeal.S50000x128, .f32⟩ : BufTy).Contents (Elt F)) (x1 : (⟨Cert.ReferenceIdeal.S2x625000, .i32⟩ : BufTy).Contents (Elt F))
    (x3 : (⟨Cert.ReferenceIdeal.S128x256, .f32⟩ : BufTy).Contents (Elt F)) (x4 : (⟨Cert.ReferenceIdeal.S256, .f32⟩ : BufTy).Contents (Elt F)) :
    maximumf (F := F) (addf (val_main_v43 x0 x1 x3) (broadcastInDim Cert.ReferenceIdeal.S50000x256 ![0, 1] Cert.ReferenceIdeal.Facts₀.bcast_S1x256_S50000x256_0_1 (val_main_v44 x4)))
        (broadcastInDim Cert.ReferenceIdeal.S50000x256 ![] Cert.ReferenceIdeal.Facts₀.bcast_S_S50000x256 (constant Cert.ReferenceIdeal.S_ .f32 0x00000000#32))
      = val_main_v47 x0 x1 x3 x4 := rfl

theorem relu2_stage (x0 : (⟨Cert.ReferenceIdeal.S50000x128, .f32⟩ : BufTy).Contents (Elt F)) (x1 : (⟨Cert.ReferenceIdeal.S2x625000, .i32⟩ : BufTy).Contents (Elt F))
    (x3 : (⟨Cert.ReferenceIdeal.S128x256, .f32⟩ : BufTy).Contents (Elt F)) (x4 : (⟨Cert.ReferenceIdeal.S256, .f32⟩ : BufTy).Contents (Elt F))
    (x5 : (⟨Cert.ReferenceIdeal.S256x128, .f32⟩ : BufTy).Contents (Elt F)) (x6 : (⟨Cert.ReferenceIdeal.S128, .f32⟩ : BufTy).Contents (Elt F)) :
    maximumf (F := F) (addf (val_main_v61 x0 x1 x3 x4 x5) (broadcastInDim Cert.ReferenceIdeal.S50000x128 ![0, 1] Cert.ReferenceIdeal.Facts₀.bcast_S1x128_S50000x128_0_1 (val_main_v62 x6)))
        (broadcastInDim Cert.ReferenceIdeal.S50000x128 ![] Cert.ReferenceIdeal.Facts₀.bcast_S_S50000x128 (constant Cert.ReferenceIdeal.S_ .f32 0x00000000#32))
      = val_main_v65 x0 x1 x3 x4 x5 x6 := rfl

end Cert.KernelIdeal.Stretch

end
-- ==== Proof.Dense1Region.lean ====
import proofs.«162527_j41489384080024_1_alg».proof.Proof.Gen.KernelIdeal.Frame
import proofs.«162527_j41489384080024_1_alg».proof.Proof.Gen.ReferenceIdeal
import proofs.«162527_j41489384080024_1_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Dense1

open Cert.KernelIdeal Cert.KernelIdeal.Gen

variable (V : (c : Dev nD) → (b : Ref sig .tc) → Buf (Elt Ideal) ((c : Thread nD τ).loc b))

/-- The left operand's axis 0 in the block product is the output's row. -/
theorem blockDot_lhs_0 (j : S2000x256.Idx) (q : dot_S2000x128_S128x256_S2000x256_1_0_0_1_n_n.contr.Idx) :
    (dot_S2000x128_S128x256_S2000x256_1_0_0_1_n_n.lhsIdx j q 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The left operand's axis 1 is the contraction index. -/
theorem blockDot_lhs_1 (j : S2000x256.Idx) (q : dot_S2000x128_S128x256_S2000x256_1_0_0_1_n_n.contr.Idx) :
    (dot_S2000x128_S128x256_S2000x256_1_0_0_1_n_n.lhsIdx j q 1).val = (q ⟨0, by decide⟩).val :=
  dot_S2000x128_S128x256_S2000x256_1_0_0_1_n_n.lhsIdx_val_of_single rfl j q
/-- The right operand's axis 0 is the contraction index. -/
theorem blockDot_rhs_0 (j : S2000x256.Idx) (q : dot_S2000x128_S128x256_S2000x256_1_0_0_1_n_n.contr.Idx) :
    (dot_S2000x128_S128x256_S2000x256_1_0_0_1_n_n.rhsIdx j q 0).val = (q ⟨0, by decide⟩).val :=
  dot_S2000x128_S128x256_S2000x256_1_0_0_1_n_n.rhsIdx_val_of_single rfl j q
/-- The right operand's axis 1 is the output's column. -/
theorem blockDot_rhs_1 (j : S2000x256.Idx) (q : dot_S2000x128_S128x256_S2000x256_1_0_0_1_n_n.contr.Idx) :
    (dot_S2000x128_S128x256_S2000x256_1_0_0_1_n_n.rhsIdx j q 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry (row of j, k) of a left block. -/
abbrev leftAt (j : S2000x256.Idx) (k : Fin 128) : S2000x128.Idx := fun a => match a with
  | ⟨0, _⟩ => ⟨(j 0).val, (j 0).isLt⟩
  | ⟨1, _⟩ => ⟨k.val, k.isLt⟩
/-- Entry (k, column of j) of the right operand. -/
abbrev rightAt (j : S2000x256.Idx) (k : Fin 128) : S128x256.Idx := fun a => match a with
  | ⟨0, _⟩ => ⟨k.val, k.isLt⟩
  | ⟨1, _⟩ => ⟨(j 1).val, (j 1).isLt⟩

/-- The body's payload at an index: the casts are the identity on exact values and the product into the zero
    accumulator is the sum over the contraction index of the products of the operands' entries. -/
theorem product_block_apply (x0 : Vec Ideal S2000x128 .f32) (x1 : Vec Ideal S128x256 .f32) (j : S2000x256.Idx) :
    k0_pay1 (F := Ideal) x0 x1 j = ∑ k : Fin 128, x0 (leftAt j k) * x1 (rightAt j k) := by
  unfold k0_pay1
  show FloatOps.matmul dot_S2000x128_S128x256_S2000x256_1_0_0_1_n_n none (truncf (F := Ideal) .bf16 x0 bitsLt_bf16_f32) (truncf (F := Ideal) .bf16 x1 bitsLt_bf16_f32) (constant (F := Ideal) S2000x256 .f32 0x00000000#32) j = _
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx j ((ValueIdx.contrEquiv1 dot_S2000x128_S128x256_S2000x256_1_0_0_1_n_n 128 rfl rfl).symm k) = leftAt j k := funext fun a => Fin.ext (by
    match a with
    | ⟨0, _⟩ => exact blockDot_lhs_0 _ _
    | ⟨1, _⟩ => exact (blockDot_lhs_1 _ _).trans hk)
  have er : dot_S2000x128_S128x256_S2000x256_1_0_0_1_n_n.rhsIdx j ((ValueIdx.contrEquiv1 dot_S2000x128_S128x256_S2000x256_1_0_0_1_n_n 128 rfl rfl).symm k) = rightAt j k := funext fun a => Fin.ext (by
    match a with
    | ⟨0, _⟩ => exact (blockDot_rhs_0 _ _).trans hk
    | ⟨1, _⟩ => exact blockDot_rhs_1 _ _)
  rw [el, er]
  rfl

/-- The zero offsets of the body's whole-buffer accesses. -/
theorem zero_offsets : (![0, 0] : Fin 2 → Nat) = fun _ => 0 := funext fun a => by fin_cases a <;> rfl

/-- The printed index maps over the grid: at point t the left array's window and the product's window are at row
    block t, column block 0; the right array's window stays at block (0, 0). -/
theorem block_indices : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The left window's block at point t is rows 2000 t … 2000 t + 1999 of the left array. -/
theorem left_block_apply (c : Dev nD) (t : Fin cfg0.N) (x : S2000x128.Idx) (i : S50000x128.Idx)
    (h0 : (i 0).val = 2000 * t.val + (x 0).val) (h1 : (i 1).val = (x 1).val) :
    (iblk0 (F := Ideal) V c 0 t : Vec Ideal S2000x128 .f32) x = (V c main_arg0 : S50000x128.Idx → Elt Ideal .f32) i := by
  obtain ⟨-, -, e0, e1, -, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * (x 0).val = (i 0).val; rw [e0, h0]; omega
  | ⟨1, _⟩ => show win0_0.index t (1 : Fin 2) * 128 + 1 * (x 1).val = (i 1).val; rw [e1, h1]; omega

/-- The right window's block at every point is the whole right array. -/
theorem right_block_apply (c : Dev nD) (t : Fin cfg0.N) (x : S128x256.Idx) (i : S128x256.Idx)
    (h0 : (i 0).val = (x 0).val) (h1 : (i 1).val = (x 1).val) :
    (iblk0 (F := Ideal) V c 1 t : Vec Ideal S128x256 .f32) x = (V c main_arg3 : S128x256.Idx → Elt Ideal .f32) i := by
  obtain ⟨-, -, -, -, e0, e1⟩ := block_indices t
  unfold iblk0
  rw [View.read_apply]
  show V c main_arg3 _ = V c main_arg3 _
  congr 1
  funext a
  apply Fin.ext
  match a with
  | ⟨0, _⟩ => show win0_1.index t (0 : Fin 2) * 128 + 1 * (x 0).val = (i 0).val; rw [e0, h0]; omega
  | ⟨1, _⟩ => show win0_1.index t (1 : Fin 2) * 256 + 1 * (x 1).val = (i 1).val; rw [e1, h1]; omega

/-- WHAT POINT t WRITES BACK is block t of the reference's contraction of the two arrays the region read. -/
theorem flushed_eq (c : Dev nD) (t : Fin cfg0.N) :
    (dat0 (F := Ideal) V c).flushed 2 t = ((cfg0.win 2).blk t).view.read (Elt Ideal)
      (Cert.ReferenceIdeal.ReadP.val_main_v30 (F := Ideal) (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x256) zero_offsets]
  obtain ⟨e0, e1, -, -, -, -⟩ := block_indices t
  funext y
  rw [View.read_apply]
  show k0_pay1 (F := Ideal) (iblk0 V c 0 t) (iblk0 V c 1 t) y = Cert.ReferenceIdeal.ReadP.val_main_v30 (F := Ideal) (V c main_arg0) (V c main_arg3) (((cfg0.win 2).blk t).view.emb y)
  rw [Cert.ReferenceIdeal.ReadP.val_main_v30_apply]
  refine (product_block_apply (iblk0 V c 0 t) (iblk0 V c 1 t) y).trans ?_
  refine Finset.sum_congr rfl fun k _ => ?_
  have r0 : ((((cfg0.win 2).blk t).view.emb y) 0).val = 2000 * t.val + (y 0).val := by
    show win0_2.index t (0 : Fin 2) * 2000 + 1 * (y 0).val = _; rw [e0]; omega
  have r1 : ((((cfg0.win 2).blk t).view.emb y) 1).val = (y 1).val := by
    show win0_2.index t (1 : Fin 2) * 256 + 1 * (y 1).val = _; rw [e1]; omega
  congr 1
  · exact left_block_apply V c t (leftAt y k) _ r0 rfl
  · exact right_block_apply V c t (rightAt y k) _ rfl r1

/-- An index of the product array is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every row of the product array lies in the block of the point numbered by the row divided by 2000. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := rfl
  refine ⟨⟨(i 0).val / 2000, by rw [hN]; omega⟩, flush0_2 _, ?_⟩
  rw [mem_block]
  obtain ⟨e0, e1, -, -, -, -⟩ := block_indices ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e0]; show (i 0).val / 2000 * 2000 ≤ (i 0).val ∧ (i 0).val < (i 0).val / 2000 * 2000 + 2000; omega
  | ⟨1, _⟩ => show win0_2.index _ (1 : Fin 2) * 256 ≤ (i 1).val ∧ (i 1).val < win0_2.index _ (1 : Fin 2) * 256 + 256; rw [e1]; omega

/-- After the first matrix-product region the product array holds, whole, the reference's contraction of the two arrays the
    region read: row block t of the product is the product of row block t of the left array with the whole right array. -/
theorem array_eq (c : Dev nD) :
    (dat0 (F := Ideal) V c).arrAt 2 cfg0.N
      = Host.dotGeneral (F := Ideal) (φ₁ := .f32) (φ₂ := .f32) Cert.ReferenceIdeal.dot_S50000x128_S128x256_S50000x256_1_0_0_1_n_n none (V c main_arg0) (V c main_arg3) :=
  (dat0 (F := Ideal) V c).arrAt_eq_of_cover 2
    (Cert.ReferenceIdeal.ReadP.val_main_v30 (F := Ideal) (V c main_arg0) (V c main_arg3))
    (fun t _ => flushed_eq V c t) covered

end Cert.KernelIdeal.Dense1

end
-- ==== Proof.Dense2Region.lean ====
import proofs.«162527_j41489384080024_1_alg».proof.Proof.Gen.KernelIdeal.Frame
import proofs.«162527_j41489384080024_1_alg».proof.Proof.Gen.ReferenceIdeal
import proofs.«162527_j41489384080024_1_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Dense2

open Cert.KernelIdeal Cert.KernelIdeal.Gen

variable (V : (c : Dev nD) → (b : Ref sig .tc) → Buf (Elt Ideal) ((c : Thread nD τ).loc b))

/-- The left operand's axis 0 in the block product is the output's row. -/
theorem blockDot_lhs_0 (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's axis 1 is the contraction index. -/
theorem blockDot_lhs_1 (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q
/-- The right operand's axis 0 is the contraction index. -/
theorem blockDot_rhs_0 (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q
/-- The right operand's axis 1 is the output's column. -/
theorem blockDot_rhs_1 (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (row of j, k) of a left block. -/
abbrev leftAt (j : S2000x128.Idx) (k : Fin 256) : S2000x256.Idx := fun a => match a with
  | ⟨0, _⟩ => ⟨(j 0).val, (j 0).isLt⟩
  | ⟨1, _⟩ => ⟨k.val, k.isLt⟩
/-- Entry (k, column of j) of the right operand. -/
abbrev rightAt (j : S2000x128.Idx) (k : Fin 256) : S256x128.Idx := fun a => match a with
  | ⟨0, _⟩ => ⟨k.val, k.isLt⟩
  | ⟨1, _⟩ => ⟨(j 1).val, (j 1).isLt⟩

/-- The body's payload at an index: the reshape to the same shape and the casts are the identity on exact values, and
    the product into the zero accumulator is the sum over the contraction index of the products of the operands' entries. -/
theorem product_block_apply (x0 : Vec Ideal S2000x256 .f32) (x1 : Vec Ideal S256x128 .f32) (j : S2000x128.Idx) :
    k2_pay1 (F := Ideal) x0 x1 j = ∑ k : Fin 256, x0 (leftAt j k) * x1 (rightAt j k) := by
  unfold k2_pay1
  show FloatOps.matmul dot_S2000x256_S256x128_S2000x128_1_0_0_1_n_n none (truncf (F := Ideal) .bf16 (shapeCast S2000x256 x0 shapeCasts_S2000x256_S2000x256) bitsLt_bf16_f32) (truncf (F := Ideal) .bf16 x1 bitsLt_bf16_f32) (constant (F := Ideal) S2000x128 .f32 0x00000000#32) j = _
  rw [shapeCast_self]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = leftAt j k := funext fun a => Fin.ext (by
    match a with
    | ⟨0, _⟩ => exact blockDot_lhs_0 _ _
    | ⟨1, _⟩ => exact (blockDot_lhs_1 _ _).trans hk)
  have er : dot_S2000x256_S256x128_S2000x128_1_0_0_1_n_n.rhsIdx j ((ValueIdx.contrEquiv1 dot_S2000x256_S256x128_S2000x128_1_0_0_1_n_n 256 rfl rfl).symm k) = rightAt j k := funext fun a => Fin.ext (by
    match a with
    | ⟨0, _⟩ => exact (blockDot_rhs_0 _ _).trans hk
    | ⟨1, _⟩ => exact blockDot_rhs_1 _ _)
  rw [el, er]
  rfl

/-- The reference's contraction at an index, for any two operands: the sum over the contraction index of the products
    of the left operand's entry in the output's row and the right operand's entry in the output's column. -/
theorem reference_product_apply (x : (⟨Cert.ReferenceIdeal.S50000x256, .f32⟩ : BufTy).Contents (Elt Ideal))
    (w : (⟨Cert.ReferenceIdeal.S256x128, .f32⟩ : BufTy).Contents (Elt Ideal)) (i : Cert.ReferenceIdeal.S50000x128.Idx) :
    Host.dotGeneral (F := Ideal) (φ₁ := .f32) (φ₂ := .f32) Cert.ReferenceIdeal.dot_S50000x256_S256x128_S50000x128_1_0_0_1_n_n none x w i
      = ∑ k : Fin 256, x (Cert.ReferenceIdeal.ReadP.lidx_main_v48 i k) * w (Cert.ReferenceIdeal.ReadP.ridx_main_v48 i k) := by
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = Cert.ReferenceIdeal.ReadP.lidx_main_v48 i k := funext fun a => Fin.ext (by
    match a with
    | ⟨0, _⟩ => exact Cert.ReferenceIdeal.ReadP.lhs_main_v48_0 _ _
    | ⟨1, _⟩ => exact (Cert.ReferenceIdeal.ReadP.lhs_main_v48_1 _ _).trans hk)
  have er : Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = Cert.ReferenceIdeal.ReadP.ridx_main_v48 i k := funext fun a => Fin.ext (by
    match a with
    | ⟨0, _⟩ => exact (Cert.ReferenceIdeal.ReadP.rhs_main_v48_0 _ _).trans hk
    | ⟨1, _⟩ => exact Cert.ReferenceIdeal.ReadP.rhs_main_v48_1 _ _)
  rw [el, er]

/-- The zero offsets of the body's whole-buffer accesses. -/
theorem zero_offsets : (![0, 0] : Fin 2 → Nat) = fun _ => 0 := funext fun a => by fin_cases a <;> rfl

/-- The printed index maps over the grid: at point t the left array's window and the product's window are at row
    block t, column block 0; the right array's window stays at block (0, 0). -/
theorem block_indices : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- The left window's block at point t is rows 2000 t … 2000 t + 1999 of the left array. -/
theorem left_block_apply (c : Dev nD) (t : Fin cfg2.N) (x : S2000x256.Idx) (i : S50000x256.Idx)
    (h0 : (i 0).val = 2000 * t.val + (x 0).val) (h1 : (i 1).val = (x 1).val) :
    (iblk2 (F := Ideal) V c 0 t : Vec Ideal S2000x256 .f32) x = (V c main_v45 : S50000x256.Idx → Elt Ideal .f32) i := by
  obtain ⟨-, -, e0, e1, -, -⟩ := block_indices t
  unfold iblk2
  rw [View.read_apply]
  show V c main_v45 _ = V c main_v45 _
  congr 1
  funext a
  apply Fin.ext
  match a with
  | ⟨0, _⟩ => show win2_0.index t (0 : Fin 2) * 2000 + 1 * (x 0).val = (i 0).val; rw [e0, h0]; omega
  | ⟨1, _⟩ => show win2_0.index t (1 : Fin 2) * 256 + 1 * (x 1).val = (i 1).val; rw [e1, h1]; omega

/-- The right window's block at every point is the whole right array. -/
theorem right_block_apply (c : Dev nD) (t : Fin cfg2.N) (x : S256x128.Idx) (i : S256x128.Idx)
    (h0 : (i 0).val = (x 0).val) (h1 : (i 1).val = (x 1).val) :
    (iblk2 (F := Ideal) V c 1 t : Vec Ideal S256x128 .f32) x = (V c main_arg5 : S256x128.Idx → Elt Ideal .f32) i := by
  obtain ⟨-, -, -, -, e0, e1⟩ := block_indices t
  unfold iblk2
  rw [View.read_apply]
  show V c main_arg5 _ = V c main_arg5 _
  congr 1
  funext a
  apply Fin.ext
  match a with
  | ⟨0, _⟩ => show win2_1.index t (0 : Fin 2) * 256 + 1 * (x 0).val = (i 0).val; rw [e0, h0]; omega
  | ⟨1, _⟩ => show win2_1.index t (1 : Fin 2) * 128 + 1 * (x 1).val = (i 1).val; rw [e1, h1]; omega

/-- WHAT POINT t WRITES BACK is block t of the reference's contraction of the two arrays the region read. -/
theorem flushed_eq (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S50000x256_S256x128_S50000x128_1_0_0_1_n_n none (V c main_v45) (V c main_arg5)) := by
  show (cfg2.win 2).cut (grid2.coords t) ((dat2 V c).after 2 t) = _
  rw [after2_2]
  unfold out2_2
  rw [View.canon_unit_zero zero_offsets]
  simp only [View.ld_unit_zero (S := S2000x256) zero_offsets, View.ld_unit_zero (S := S256x128) zero_offsets]
  obtain ⟨e0, e1, -, -, -, -⟩ := block_indices t
  funext y
  rw [View.read_apply]
  show k2_pay1 (F := Ideal) (iblk2 V c 0 t) (iblk2 V c 1 t) y = Host.dotGeneral (F := Ideal) (φ₁ := .f32) (φ₂ := .f32) Cert.ReferenceIdeal.dot_S50000x256_S256x128_S50000x128_1_0_0_1_n_n none (V c main_v45) (V c main_arg5) (((cfg2.win 2).blk t).view.emb y)
  rw [reference_product_apply]
  refine (product_block_apply (iblk2 V c 0 t) (iblk2 V c 1 t) y).trans ?_
  refine Finset.sum_congr rfl fun k _ => ?_
  have r0 : ((((cfg2.win 2).blk t).view.emb y) 0).val = 2000 * t.val + (y 0).val := by
    show win2_2.index t (0 : Fin 2) * 2000 + 1 * (y 0).val = _; rw [e0]; omega
  have r1 : ((((cfg2.win 2).blk t).view.emb y) 1).val = (y 1).val := by
    show win2_2.index t (1 : Fin 2) * 128 + 1 * (y 1).val = _; rw [e1]; omega
  congr 1
  · exact left_block_apply V c t (leftAt y k) _ r0 rfl
  · exact right_block_apply V c t (rightAt y k) _ rfl r1

/-- An index of the product array is in point t's block iff each coordinate is in the block's range on its axis. -/
theorem mem_block (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Every row of the product array lies in the block of the point numbered by the row divided by 2000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := rfl
  refine ⟨⟨(i 0).val / 2000, by rw [hN]; omega⟩, flush2_2 _, ?_⟩
  rw [mem_block]
  obtain ⟨e0, e1, -, -, -, -⟩ := block_indices ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e0]; show (i 0).val / 2000 * 2000 ≤ (i 0).val ∧ (i 0).val < (i 0).val / 2000 * 2000 + 2000; omega
  | ⟨1, _⟩ => show win2_2.index _ (1 : Fin 2) * 128 ≤ (i 1).val ∧ (i 1).val < win2_2.index _ (1 : Fin 2) * 128 + 128; rw [e1]; omega

/-- After the second matrix-product region the product array holds, whole, the reference's contraction of the two arrays the
    region read. -/
theorem array_eq (c : Dev nD) :
    (dat2 (F := Ideal) V c).arrAt 2 cfg2.N
      = Host.dotGeneral (F := Ideal) (φ₁ := .f32) (φ₂ := .f32) Cert.ReferenceIdeal.dot_S50000x256_S256x128_S50000x128_1_0_0_1_n_n none (V c main_v45) (V c main_arg5) :=
  (dat2 (F := Ideal) V c).arrAt_eq_of_cover 2 _
    (fun t _ => flushed_eq V c t) covered

end Cert.KernelIdeal.Dense2

end
-- ==== Proof.BiasRelu1Region.lean ====
import proofs.«162527_j41489384080024_1_alg».proof.Proof.Gen.KernelIdeal.Frame
import proofs.«162527_j41489384080024_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.BiasRelu1

open Cert.KernelIdeal Cert.KernelIdeal.Gen Idealize.ShloMosaic.ValueIdx

variable (V : (c : Dev nD) → (b : Ref sig .tc) → Buf (Elt Ideal) ((c : Thread nD τ).loc b))

/-- The zero offsets of a whole-buffer access, however they are spelt. -/
theorem zero_offsets : (![0, 0] : Fin 2 → Nat) = fun _ => 0 := funext fun a => by fin_cases a <;> rfl

/-- The reference side: the input plus the one-row bias repeated down the rows, then the maximum with the zero
    array, read at an index `i`: the bias is read at row 0 and `i`'s column. -/
theorem biasRelu_apply (x : Vec Ideal S50000x256 .f32) (b : Vec Ideal S1x256 .f32) (i : S50000x256.Idx) (k : S1x256.Idx)
    (hk0 : (k 0).val = 0) (hk1 : (k 1).val = (i 1).val) :
    maximumf (F := Ideal) (addf x (broadcastInDim Cert.ReferenceIdeal.S50000x256 ![0, 1] Cert.ReferenceIdeal.Facts₀.bcast_S1x256_S50000x256_0_1 b))
          (broadcastInDim Cert.ReferenceIdeal.S50000x256 ![] Cert.ReferenceIdeal.Facts₀.bcast_S_S50000x256 (constant Cert.ReferenceIdeal.S_ .f32 0x00000000#32)) i
      = max (x i + b k) (Ideal.ofBits .f32 0x00000000#32) := by
  show max (x i + broadcastInDim Cert.ReferenceIdeal.S50000x256 ![0, 1] Cert.ReferenceIdeal.Facts₀.bcast_S1x256_S50000x256_0_1 b i)
      (broadcastInDim Cert.ReferenceIdeal.S50000x256 ![] Cert.ReferenceIdeal.Facts₀.bcast_S_S50000x256 (constant (F := Ideal) Cert.ReferenceIdeal.S_ .f32 0x00000000#32) i) = _
  rw [broadcastInDim_apply _ Cert.ReferenceIdeal.Facts₀.bcast_S1x256_S50000x256_0_1 b i k (fun a => match a with
    | ⟨0, _⟩ => by show (k 0).val = if (1 : Nat) = 1 then 0 else (i 0).val; rw [if_pos rfl, hk0]
    | ⟨1, _⟩ => by show (k 1).val = if (256 : Nat) = 1 then 0 else (i 1).val; rw [if_neg (by decide), hk1])]
  rw [broadcastInDim_apply _ Cert.ReferenceIdeal.Facts₀.bcast_S_S50000x256 (constant (F := Ideal) Cert.ReferenceIdeal.S_ .f32 0x00000000#32) i (fun a => a.elim0) (fun a => a.elim0)]
  rfl

/-- The kernel side: the body's payload read at an index `y` of the block: the bias row is read at row 0 and
    `y`'s column. -/
theorem payload_apply (x0 : Vec Ideal S2000x256 .f32) (x1 : Vec Ideal S1x256 .f32) (y : S2000x256.Idx) (k : S1x256.Idx)
    (hk0 : (k 0).val = 0) (hk1 : (k 1).val = (y 1).val) :
    k1_pay1 (F := Ideal) x0 x1 y = max (x0 y + x1 k) (Ideal.ofBits .f32 0x00000000#32) := by
  unfold k1_pay1
  rw [shapeCast_self, shapeCast_self]
  show max (x0 y + broadcastTo S2000x256 x1 broadcasts_S1x256_S2000x256 y) (Ideal.ofBits .f32 0x00000000#32) = _
  rw [broadcastTo_apply x1 broadcasts_S1x256_S2000x256 y k (fun a => match a with
    | ⟨0, _⟩ => by show (k 0).val = if (1 : Nat) = 1 then 0 else (y 0).val; rw [if_pos rfl, hk0]
    | ⟨1, _⟩ => by show (k 1).val = if (256 : Nat) = 1 then 0 else (y 1).val; rw [if_neg (by decide), hk1])]

/-- The printed index maps, decided over the grid: at point `t` the row-blocked input and output are at block
    `(t, 0)`, the bias row at block `(0, 0)`. -/
theorem block_indices : ∀ t : Fin cfg1.N,
    win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- What the output array ends holding: the reference's bias-add and maximum with zero of the region's two input
    arrays as the region finds them. -/
abbrev biasRelu (c : Dev nD) : Vec Ideal S50000x256 .f32 :=
  maximumf (F := Ideal) (addf (V c main_v43) (broadcastInDim Cert.ReferenceIdeal.S50000x256 ![0, 1] Cert.ReferenceIdeal.Facts₀.bcast_S1x256_S50000x256_0_1 (V c main_v44)))
    (broadcastInDim Cert.ReferenceIdeal.S50000x256 ![] Cert.ReferenceIdeal.Facts₀.bcast_S_S50000x256 (constant Cert.ReferenceIdeal.S_ .f32 0x00000000#32))

/-- What point `t` writes back is block `t` of that array: rows `2000 t … 2000 t + 1999`, each the input's row plus
    the bias row, then the maximum with zero. -/
theorem flushed_eq (c : Dev nD) (t : Fin cfg1.N) :
    (dat1 (F := Ideal) V c).flushed 2 t = ((cfg1.win 2).blk t).view.read (Elt Ideal) (biasRelu V c) := by
  show (cfg1.win 2).cut (grid1.coords t) ((dat1 (F := Ideal) V c).after 2 t) = _
  rw [after1_2]
  unfold out1_2
  rw [View.canon_unit_zero zero_offsets]
  simp only [View.ld_unit_zero (S := S2000x256) zero_offsets, View.ld_unit_zero (S := S1x256) zero_offsets]
  obtain ⟨o0, o1, x0, x1, b0, b1⟩ := block_indices t
  funext y
  show k1_pay1 (F := Ideal) (iblk1 V c 0 t) (iblk1 V c 1 t) y = biasRelu V c (((cfg1.win 2).blk t).view.emb y)
  -- the bias row's index under `y`: row 0, `y`'s column
  have hk : ∃ k : S1x256.Idx, (k 0).val = 0 ∧ (k 1).val = (y 1).val :=
    ⟨ix2 (0 : Fin 1) (⟨(y 1).val, (y 1).isLt⟩ : Fin 256), rfl, rfl⟩
  obtain ⟨k, hk0, hk1⟩ := hk
  refine (payload_apply (iblk1 V c 0 t) (iblk1 V c 1 t) y k hk0 hk1).trans ?_
  refine Eq.trans ?_ (biasRelu_apply (V c main_v43) (V c main_v44) (((cfg1.win 2).blk t).view.emb y) k hk0 (by
    show (k 1).val = win1_2.index t (1 : Fin 2) * 256 + 1 * (y 1).val
    rw [o1, hk1]; omega)).symm
  -- the input's block at `t` sits in its array where the output's does
  have hx : (iblk1 V c 0 t : Vec Ideal S2000x256 .f32) y = V c main_v43 (((cfg1.win 2).blk t).view.emb y) := by
    show V c main_v43 (((cfg1.win 0).blk t).view.emb y) = V c main_v43 (((cfg1.win 2).blk t).view.emb y)
    refine congrArg _ ?_
    funext a; apply Fin.ext
    match a with
    | ⟨0, _⟩ => show win1_0.index t (0 : Fin 2) * 2000 + 1 * (y 0).val = win1_2.index t (0 : Fin 2) * 2000 + 1 * (y 0).val; rw [x0, o0]
    | ⟨1, _⟩ => show win1_0.index t (1 : Fin 2) * 256 + 1 * (y 1).val = win1_2.index t (1 : Fin 2) * 256 + 1 * (y 1).val; rw [x1, o1]
  -- the bias window's one block is its whole one-row array
  have hb : (iblk1 V c 1 t : Vec Ideal S1x256 .f32) k = V c main_v44 k := by
    show V c main_v44 (((cfg1.win 1).blk t).view.emb k) = V c main_v44 k
    refine congrArg _ ?_
    funext a; apply Fin.ext
    match a with
    | ⟨0, _⟩ => show win1_1.index t (0 : Fin 2) * 1 + 1 * (k 0).val = (k 0).val; rw [b0]; omega
    | ⟨1, _⟩ => show win1_1.index t (1 : Fin 2) * 256 + 1 * (k 1).val = (k 1).val; rw [b1]; omega
  rw [hx, hb]

/-- An index of the array is in point `t`'s block iff each coordinate is in the block's range on its axis. -/
theorem mem_block (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v45).slice (win1_2.rect t)).set ↔ _
  rw [View.set_slice_whole, Rect.mem_set_unit]
  exact Iff.rfl

/-- The 25 row blocks tile the array: row `r` is in the block of point `r / 2000`. -/
theorem covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  have ht : (i 0).val / 2000 < cfg1.N := by rw [hN]; omega
  obtain ⟨o0, o1, -, -, -, -⟩ := block_indices ⟨(i 0).val / 2000, ht⟩
  refine ⟨⟨(i 0).val / 2000, ht⟩, flush1_2 _, ?_⟩
  rw [mem_block]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win1_2.index ⟨(i 0).val / 2000, ht⟩ (1 : Fin 2) * 256 ≤ (i 1).val ∧ (i 1).val < win1_2.index ⟨(i 0).val / 2000, ht⟩ (1 : Fin 2) * 256 + 256
    rw [o1]; omega

/-- After the first bias-and-ReLU region the output array holds, whole, the maximum with zero of the input array plus the
    one-row bias array repeated down the rows. -/
theorem array_eq (c : Dev nD) :
    (dat1 (F := Ideal) V c).arrAt 2 cfg1.N
      = maximumf (F := Ideal) (addf (V c main_v43) (broadcastInDim Cert.ReferenceIdeal.S50000x256 ![0, 1] Cert.ReferenceIdeal.Facts₀.bcast_S1x256_S50000x256_0_1 (V c main_v44)))
          (broadcastInDim Cert.ReferenceIdeal.S50000x256 ![] Cert.ReferenceIdeal.Facts₀.bcast_S_S50000x256 (constant Cert.ReferenceIdeal.S_ .f32 0x00000000#32)) :=
  (dat1 (F := Ideal) V c).arrAt_eq_of_cover 2 (biasRelu V c) (fun t _ => flushed_eq V c t) covered

/-- A vector reshaped to one row is the vector laid along the second axis of a one-row array. -/
theorem row_eq (b : Vec Ideal S256 .f32) :
    shapeCast S1x256 b shapeCasts_S256_S1x256
      = broadcastInDim Cert.ReferenceIdeal.S1x256 ![1] Cert.ReferenceIdeal.Facts₀.bcast_S256_S1x256_1 b := by
  funext j
  obtain ⟨u, q, rfl⟩ : ∃ (u : Fin 1) (q : Fin 256), j = ix2 u q := ⟨j 0, j 1, eq_ix2 j⟩
  rw [shapeCast_a_1a_apply b shapeCasts_S256_S1x256 u q]
  exact (broadcastInDim_apply _ Cert.ReferenceIdeal.Facts₀.bcast_S256_S1x256_1 b (ix2 u q) (ix1 q) (fun a => match a with
    | ⟨0, _⟩ => by show q.val = if (256 : Nat) = 1 then 0 else q.val; rw [if_neg (by decide)])).symm

end Cert.KernelIdeal.BiasRelu1

end
-- ==== Proof.BiasRelu2Region.lean ====
import proofs.«162527_j41489384080024_1_alg».proof.Proof.Gen.KernelIdeal.Frame
import proofs.«162527_j41489384080024_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.BiasRelu2

open Cert.KernelIdeal Cert.KernelIdeal.Gen Idealize.ShloMosaic.ValueIdx

variable (V : (c : Dev nD) → (b : Ref sig .tc) → Buf (Elt Ideal) ((c : Thread nD τ).loc b))

/-- The zero offsets of a whole-buffer access, however they are spelt. -/
theorem zero_offsets : (![0, 0] : Fin 2 → Nat) = fun _ => 0 := funext fun a => by fin_cases a <;> rfl

/-- The reference side: the input plus the one-row bias repeated down the rows, then the maximum with the zero
    array, read at an index `i`: the bias is read at row 0 and `i`'s column. -/
theorem biasRelu_apply (x : Vec Ideal S50000x128 .f32) (b : Vec Ideal S1x128 .f32) (i : S50000x128.Idx) (k : S1x128.Idx)
    (hk0 : (k 0).val = 0) (hk1 : (k 1).val = (i 1).val) :
    maximumf (F := Ideal) (addf x (broadcastInDim Cert.ReferenceIdeal.S50000x128 ![0, 1] Cert.ReferenceIdeal.Facts₀.bcast_S1x128_S50000x128_0_1 b))
          (broadcastInDim Cert.ReferenceIdeal.S50000x128 ![] Cert.ReferenceIdeal.Facts₀.bcast_S_S50000x128 (constant Cert.ReferenceIdeal.S_ .f32 0x00000000#32)) i
      = max (x i + b k) (Ideal.ofBits .f32 0x00000000#32) := by
  show max (x i + broadcastInDim Cert.ReferenceIdeal.S50000x128 ![0, 1] Cert.ReferenceIdeal.Facts₀.bcast_S1x128_S50000x128_0_1 b i)
      (broadcastInDim Cert.ReferenceIdeal.S50000x128 ![] Cert.ReferenceIdeal.Facts₀.bcast_S_S50000x128 (constant (F := Ideal) Cert.ReferenceIdeal.S_ .f32 0x00000000#32) i) = _
  rw [broadcastInDim_apply _ Cert.ReferenceIdeal.Facts₀.bcast_S1x128_S50000x128_0_1 b i k (fun a => match a with
    | ⟨0, _⟩ => by show (k 0).val = if (1 : Nat) = 1 then 0 else (i 0).val; rw [if_pos rfl, hk0]
    | ⟨1, _⟩ => by show (k 1).val = if (128 : Nat) = 1 then 0 else (i 1).val; rw [if_neg (by decide), hk1])]
  rw [broadcastInDim_apply _ Cert.ReferenceIdeal.Facts₀.bcast_S_S50000x128 (constant (F := Ideal) Cert.ReferenceIdeal.S_ .f32 0x00000000#32) i (fun a => a.elim0) (fun a => a.elim0)]
  rfl

/-- The kernel side: the body's payload read at an index `y` of the block: the bias row is read at row 0 and
    `y`'s column. -/
theorem payload_apply (x0 : Vec Ideal S2000x128 .f32) (x1 : Vec Ideal S1x128 .f32) (y : S2000x128.Idx) (k : S1x128.Idx)
    (hk0 : (k 0).val = 0) (hk1 : (k 1).val = (y 1).val) :
    k3_pay1 (F := Ideal) x0 x1 y = max (x0 y + x1 k) (Ideal.ofBits .f32 0x00000000#32) := by
  unfold k3_pay1
  rw [shapeCast_self, shapeCast_self]
  show max (x0 y + broadcastTo S2000x128 x1 broadcasts_S1x128_S2000x128 y) (Ideal.ofBits .f32 0x00000000#32) = _
  rw [broadcastTo_apply x1 broadcasts_S1x128_S2000x128 y k (fun a => match a with
    | ⟨0, _⟩ => by show (k 0).val = if (1 : Nat) = 1 then 0 else (y 0).val; rw [if_pos rfl, hk0]
    | ⟨1, _⟩ => by show (k 1).val = if (128 : Nat) = 1 then 0 else (y 1).val; rw [if_neg (by decide), hk1])]

/-- The printed index maps, decided over the grid: at point `t` the row-blocked input and output are at block
    `(t, 0)`, the bias row at block `(0, 0)`. -/
theorem block_indices : ∀ t : Fin cfg3.N,
    win3_2.index t (0 : Fin 2) = t.val ∧ win3_2.index t (1 : Fin 2) = 0
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- What the output array ends holding: the reference's bias-add and maximum with zero of the region's two input
    arrays as the region finds them. -/
abbrev biasRelu (c : Dev nD) : Vec Ideal S50000x128 .f32 :=
  maximumf (F := Ideal) (addf (V c main_v59) (broadcastInDim Cert.ReferenceIdeal.S50000x128 ![0, 1] Cert.ReferenceIdeal.Facts₀.bcast_S1x128_S50000x128_0_1 (V c main_v60)))
    (broadcastInDim Cert.ReferenceIdeal.S50000x128 ![] Cert.ReferenceIdeal.Facts₀.bcast_S_S50000x128 (constant Cert.ReferenceIdeal.S_ .f32 0x00000000#32))

/-- What point `t` writes back is block `t` of that array: rows `2000 t … 2000 t + 1999`, each the input's row plus
    the bias row, then the maximum with zero. -/
theorem flushed_eq (c : Dev nD) (t : Fin cfg3.N) :
    (dat3 (F := Ideal) V c).flushed 2 t = ((cfg3.win 2).blk t).view.read (Elt Ideal) (biasRelu V c) := by
  show (cfg3.win 2).cut (grid3.coords t) ((dat3 (F := Ideal) V c).after 2 t) = _
  rw [after3_2]
  unfold out3_2
  rw [View.canon_unit_zero zero_offsets]
  simp only [View.ld_unit_zero (S := S2000x128) zero_offsets, View.ld_unit_zero (S := S1x128) zero_offsets]
  obtain ⟨o0, o1, x0, x1, b0, b1⟩ := block_indices t
  funext y
  show k3_pay1 (F := Ideal) (iblk3 V c 0 t) (iblk3 V c 1 t) y = biasRelu V c (((cfg3.win 2).blk t).view.emb y)
  -- the bias row's index under `y`: row 0, `y`'s column
  have hk : ∃ k : S1x128.Idx, (k 0).val = 0 ∧ (k 1).val = (y 1).val :=
    ⟨ix2 (0 : Fin 1) (⟨(y 1).val, (y 1).isLt⟩ : Fin 128), rfl, rfl⟩
  obtain ⟨k, hk0, hk1⟩ := hk
  refine (payload_apply (iblk3 V c 0 t) (iblk3 V c 1 t) y k hk0 hk1).trans ?_
  refine Eq.trans ?_ (biasRelu_apply (V c main_v59) (V c main_v60) (((cfg3.win 2).blk t).view.emb y) k hk0 (by
    show (k 1).val = win3_2.index t (1 : Fin 2) * 128 + 1 * (y 1).val
    rw [o1, hk1]; omega)).symm
  -- the input's block at `t` sits in its array where the output's does
  have hx : (iblk3 V c 0 t : Vec Ideal S2000x128 .f32) y = V c main_v59 (((cfg3.win 2).blk t).view.emb y) := by
    show V c main_v59 (((cfg3.win 0).blk t).view.emb y) = V c main_v59 (((cfg3.win 2).blk t).view.emb y)
    refine congrArg _ ?_
    funext a; apply Fin.ext
    match a with
    | ⟨0, _⟩ => show win3_0.index t (0 : Fin 2) * 2000 + 1 * (y 0).val = win3_2.index t (0 : Fin 2) * 2000 + 1 * (y 0).val; rw [x0, o0]
    | ⟨1, _⟩ => show win3_0.index t (1 : Fin 2) * 128 + 1 * (y 1).val = win3_2.index t (1 : Fin 2) * 128 + 1 * (y 1).val; rw [x1, o1]
  -- the bias window's one block is its whole one-row array
  have hb : (iblk3 V c 1 t : Vec Ideal S1x128 .f32) k = V c main_v60 k := by
    show V c main_v60 (((cfg3.win 1).blk t).view.emb k) = V c main_v60 k
    refine congrArg _ ?_
    funext a; apply Fin.ext
    match a with
    | ⟨0, _⟩ => show win3_1.index t (0 : Fin 2) * 1 + 1 * (k 0).val = (k 0).val; rw [b0]; omega
    | ⟨1, _⟩ => show win3_1.index t (1 : Fin 2) * 128 + 1 * (k 1).val = (k 1).val; rw [b1]; omega
  rw [hx, hb]

/-- An index of the array is in point `t`'s block iff each coordinate is in the block's range on its axis. -/
theorem mem_block (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v61).slice (win3_2.rect t)).set ↔ _
  rw [View.set_slice_whole, Rect.mem_set_unit]
  exact Iff.rfl

/-- The 25 row blocks tile the array: row `r` is in the block of point `r / 2000`. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  have ht : (i 0).val / 2000 < cfg3.N := by rw [hN]; omega
  obtain ⟨o0, o1, -, -, -, -⟩ := block_indices ⟨(i 0).val / 2000, ht⟩
  refine ⟨⟨(i 0).val / 2000, ht⟩, flush3_2 _, ?_⟩
  rw [mem_block]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win3_2.index ⟨(i 0).val / 2000, ht⟩ (1 : Fin 2) * 128 ≤ (i 1).val ∧ (i 1).val < win3_2.index ⟨(i 0).val / 2000, ht⟩ (1 : Fin 2) * 128 + 128
    rw [o1]; omega

/-- After the second bias-and-ReLU region the output array holds, whole, the maximum with zero of the input array plus the
    one-row bias array repeated down the rows. -/
theorem array_eq (c : Dev nD) :
    (dat3 (F := Ideal) V c).arrAt 2 cfg3.N
      = maximumf (F := Ideal) (addf (V c main_v59) (broadcastInDim Cert.ReferenceIdeal.S50000x128 ![0, 1] Cert.ReferenceIdeal.Facts₀.bcast_S1x128_S50000x128_0_1 (V c main_v60)))
          (broadcastInDim Cert.ReferenceIdeal.S50000x128 ![] Cert.ReferenceIdeal.Facts₀.bcast_S_S50000x128 (constant Cert.ReferenceIdeal.S_ .f32 0x00000000#32)) :=
  (dat3 (F := Ideal) V c).arrAt_eq_of_cover 2 (biasRelu V c) (fun t _ => flushed_eq V c t) covered

/-- A vector reshaped to one row is the vector laid along the second axis of a one-row array. -/
theorem row_eq (b : Vec Ideal S128 .f32) :
    shapeCast S1x128 b shapeCasts_S128_S1x128
      = broadcastInDim Cert.ReferenceIdeal.S1x128 ![1] Cert.ReferenceIdeal.Facts₀.bcast_S128_S1x128_1 b := by
  funext j
  obtain ⟨u, q, rfl⟩ : ∃ (u : Fin 1) (q : Fin 128), j = ix2 u q := ⟨j 0, j 1, eq_ix2 j⟩
  rw [shapeCast_a_1a_apply b shapeCasts_S128_S1x128 u q]
  exact (broadcastInDim_apply _ Cert.ReferenceIdeal.Facts₀.bcast_S128_S1x128_1 b (ix2 u q) (ix1 q) (fun a => match a with
    | ⟨0, _⟩ => by show q.val = if (128 : Nat) = 1 then 0 else q.val; rw [if_neg (by decide)])).symm

end Cert.KernelIdeal.BiasRelu2

end
-- ==== Proof.Boundaries.lean ====
import proofs.«162527_j41489384080024_1_alg».proof.Proof.Gen.KernelIdeal.Frame
import proofs.«162527_j41489384080024_1_alg».proof.Proof.RefReadP
import proofs.«162527_j41489384080024_1_alg».proof.Proof.HostStretches
import proofs.«162527_j41489384080024_1_alg».proof.Proof.Dense1Region
import proofs.«162527_j41489384080024_1_alg».proof.Proof.Dense2Region
import proofs.«162527_j41489384080024_1_alg».proof.Proof.BiasRelu1Region
import proofs.«162527_j41489384080024_1_alg».proof.Proof.BiasRelu2Region
import Idealize.ShloMosaic.Lib.StableHlo.Run

/-! The kernel's program from its launch to its return, boundary by boundary: at each boundary the buffers a later
    stretch or region reads hold the reference's stage functions of the launch arguments. Host stretches are read by
    the stretch lemmas; a region's output array by the region's whole-array lemma; a buffer nothing writes in between
    is carried along. The last boundary gives the result as the reference's last stage. -/

set_option maxRecDepth 16384

noncomputable section

open Idealize.ShloMosaic Idealize.ShloMosaic.TcCoe Idealize.SL.Sem Idealize.ShloMosaic.StableHlo

namespace Cert.KernelIdeal.Boundary

open Cert.KernelIdeal Cert.KernelIdeal.Gen Cert.ReferenceIdeal.ReadP Cert.KernelIdeal.Stretch

/-- Through the three stretches before the first region a buffer none of them writes is as launched. -/
macro "through_first" : tactic => `(tactic| (
  refine Eq.trans (by unwritten) (Eq.trans (by unwritten) (Eq.trans (by unwritten) ?_)); rfl))

section AnyFamily

variable {F : FTy → Type} [FloatOps F]
variable (m : (ℓ : Loc nD τ sig) → Buf (Elt F) ℓ) (ρ : Dev nD → PrngReg) (c : Dev nD)

/-! ## The launch arguments at the boundaries where something reads them -/

theorem entry0_arg0 : W3 m ρ c (Proc.devRef .tc main_arg0) = m ((c : Thread nD τ).loc main_arg0) := by through_first
theorem entry0_arg1 : W3 m ρ c (Proc.devRef .tc main_arg1) = m ((c : Thread nD τ).loc main_arg1) := by through_first
theorem entry0_arg2 : W3 m ρ c (Proc.devRef .tc main_arg2) = m ((c : Thread nD τ).loc main_arg2) := by through_first
theorem entry0_arg3 : W3 m ρ c (Proc.devRef .tc main_arg3) = m ((c : Thread nD τ).loc main_arg3) := by through_first
theorem entry0_arg4 : W3 m ρ c (Proc.devRef .tc main_arg4) = m ((c : Thread nD τ).loc main_arg4) := by through_first
theorem entry0_arg5 : W3 m ρ c (Proc.devRef .tc main_arg5) = m ((c : Thread nD τ).loc main_arg5) := by through_first
theorem entry0_arg6 : W3 m ρ c (Proc.devRef .tc main_arg6) = m ((c : Thread nD τ).loc main_arg6) := by through_first

theorem exit0_arg2 : W4 m ρ c (Proc.devRef .tc main_arg2) = m ((c : Thread nD τ).loc main_arg2) :=
  (W4_of_ne m ρ c main_arg2 (by decide)).trans (entry0_arg2 m ρ c)
theorem exit0_arg4 : W4 m ρ c (Proc.devRef .tc main_arg4) = m ((c : Thread nD τ).loc main_arg4) :=
  (W4_of_ne m ρ c main_arg4 (by decide)).trans (entry0_arg4 m ρ c)
theorem exit0_arg5 : W4 m ρ c (Proc.devRef .tc main_arg5) = m ((c : Thread nD τ).loc main_arg5) :=
  (W4_of_ne m ρ c main_arg5 (by decide)).trans (entry0_arg5 m ρ c)
theorem exit0_arg6 : W4 m ρ c (Proc.devRef .tc main_arg6) = m ((c : Thread nD τ).loc main_arg6) :=
  (W4_of_ne m ρ c main_arg6 (by decide)).trans (entry0_arg6 m ρ c)

theorem entry1_arg2 : W5 m ρ c (Proc.devRef .tc main_arg2) = m ((c : Thread nD τ).loc main_arg2) :=
  Eq.trans (by unwritten) (exit0_arg2 m ρ c)
theorem entry1_arg5 : W5 m ρ c (Proc.devRef .tc main_arg5) = m ((c : Thread nD τ).loc main_arg5) :=
  Eq.trans (by unwritten) (exit0_arg5 m ρ c)
theorem entry1_arg6 : W5 m ρ c (Proc.devRef .tc main_arg6) = m ((c : Thread nD τ).loc main_arg6) :=
  Eq.trans (by unwritten) (exit0_arg6 m ρ c)

theorem exit1_arg2 : W6 m ρ c (Proc.devRef .tc main_arg2) = m ((c : Thread nD τ).loc main_arg2) :=
  (W6_of_ne m ρ c main_arg2 (by decide)).trans (entry1_arg2 m ρ c)
theorem exit1_arg5 : W6 m ρ c (Proc.devRef .tc main_arg5) = m ((c : Thread nD τ).loc main_arg5) :=
  (W6_of_ne m ρ c main_arg5 (by decide)).trans (entry1_arg5 m ρ c)
theorem exit1_arg6 : W6 m ρ c (Proc.devRef .tc main_arg6) = m ((c : Thread nD τ).loc main_arg6) :=
  (W6_of_ne m ρ c main_arg6 (by decide)).trans (entry1_arg6 m ρ c)

theorem exit2_arg2 : W7 m ρ c (Proc.devRef .tc main_arg2) = m ((c : Thread nD τ).loc main_arg2) :=
  (W7_of_ne m ρ c main_arg2 (by decide)).trans (exit1_arg2 m ρ c)
theorem exit2_arg6 : W7 m ρ c (Proc.devRef .tc main_arg6) = m ((c : Thread nD τ).loc main_arg6) :=
  (W7_of_ne m ρ c main_arg6 (by decide)).trans (exit1_arg6 m ρ c)

theorem entry3_arg2 : W8 m ρ c (Proc.devRef .tc main_arg2) = m ((c : Thread nD τ).loc main_arg2) :=
  Eq.trans (by unwritten) (exit2_arg2 m ρ c)
theorem exit3_arg2 : W9 m ρ c (Proc.devRef .tc main_arg2) = m ((c : Thread nD τ).loc main_arg2) :=
  (W9_of_ne m ρ c main_arg2 (by decide)).trans (entry3_arg2 m ρ c)

/-! ## The edge lists and the edge weights, computed before the first region and read by both propagations -/

theorem entry0_src : W3 m ρ c (Proc.devRef .tc main_v3) = val_main_v3 (m ((c : Thread nD τ).loc main_arg1)) :=
  Eq.trans (by unwritten) (Eq.trans (by unwritten) (first_src (W0 m ρ c)))
theorem entry0_dst : W3 m ρ c (Proc.devRef .tc main_v6) = val_main_v6 (m ((c : Thread nD τ).loc main_arg1)) :=
  Eq.trans (by unwritten) (Eq.trans (by unwritten) (first_dst (W0 m ρ c)))
theorem entry0_norm : W3 m ρ c (Proc.devRef .tc main_v29) = val_main_v29 (m ((c : Thread nD τ).loc main_arg1)) :=
  norm_stage (W2 m ρ c) (m ((c : Thread nD τ).loc main_arg1))
    (Eq.trans (by unwritten) (first_src (W0 m ρ c)))
    (Eq.trans (by unwritten) (first_dst (W0 m ρ c)))
    (where_dinv (W1 m ρ c) (m ((c : Thread nD τ).loc main_arg1)) (first_pos (W0 m ρ c)) (first_rsqrt (W0 m ρ c)) (first_zero (W0 m ρ c)))

theorem exit0_src : W4 m ρ c (Proc.devRef .tc main_v3) = val_main_v3 (m ((c : Thread nD τ).loc main_arg1)) :=
  (W4_of_ne m ρ c main_v3 (by decide)).trans (entry0_src m ρ c)
theorem exit0_dst : W4 m ρ c (Proc.devRef .tc main_v6) = val_main_v6 (m ((c : Thread nD τ).loc main_arg1)) :=
  (W4_of_ne m ρ c main_v6 (by decide)).trans (entry0_dst m ρ c)
theorem exit0_norm : W4 m ρ c (Proc.devRef .tc main_v29) = val_main_v29 (m ((c : Thread nD τ).loc main_arg1)) :=
  (W4_of_ne m ρ c main_v29 (by decide)).trans (entry0_norm m ρ c)

theorem exit2_src : W7 m ρ c (Proc.devRef .tc main_v3) = val_main_v3 (m ((c : Thread nD τ).loc main_arg1)) :=
  (W7_of_ne m ρ c main_v3 (by decide)).trans ((W6_of_ne m ρ c main_v3 (by decide)).trans (Eq.trans (by unwritten) (exit0_src m ρ c)))
theorem exit2_dst : W7 m ρ c (Proc.devRef .tc main_v6) = val_main_v6 (m ((c : Thread nD τ).loc main_arg1)) :=
  (W7_of_ne m ρ c main_v6 (by decide)).trans ((W6_of_ne m ρ c main_v6 (by decide)).trans (Eq.trans (by unwritten) (exit0_dst m ρ c)))
theorem exit2_norm : W7 m ρ c (Proc.devRef .tc main_v29) = val_main_v29 (m ((c : Thread nD τ).loc main_arg1)) :=
  (W7_of_ne m ρ c main_v29 (by decide)).trans ((W6_of_ne m ρ c main_v29 (by decide)).trans (Eq.trans (by unwritten) (exit0_norm m ρ c)))

end AnyFamily

section Exact

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)

/-- The first product: the node features times the first weight matrix. -/
theorem exit0_product : W4 m ρ c (Proc.devRef .tc main_v30) = val_main_v30 a0 a3 := by
  refine (W4_arr m ρ c 2).trans ((Dense1.array_eq (V3 m ρ) c).trans ?_)
  have e0 : V3 m ρ c main_arg0 = a0 := entry0_arg0 m ρ c
  have e3 : V3 m ρ c main_arg3 = a3 := entry0_arg3 m ρ c
  rw [e0, e3]; rfl

/-- The first propagation's sums. -/
theorem entry1_sums : W5 m ρ c (Proc.devRef .tc main_v43) = val_main_v43 a0 a1 a3 :=
  agg1_stage (W4 m ρ c) a0 a1 a3 (exit0_src m ρ c) (exit0_dst m ρ c) (exit0_norm m ρ c) (exit0_product m ρ c)

/-- The first bias as one row. -/
theorem entry1_row : W5 m ρ c (Proc.devRef .tc main_v44) = val_main_v44 a4 := by
  refine (row1_stage (W4 m ρ c)).trans ?_
  rw [exit0_arg4 m ρ c]
  exact BiasRelu1.row_eq a4

/-- The first layer's output. -/
theorem exit1_layer : W6 m ρ c (Proc.devRef .tc main_v45) = val_main_v47 a0 a1 a3 a4 := by
  refine (W6_arr m ρ c 2).trans ((BiasRelu1.array_eq (V5 m ρ) c).trans ?_)
  have e43 : V5 m ρ c main_v43 = val_main_v43 a0 a1 a3 := entry1_sums m ρ c
  have e44 : V5 m ρ c main_v44 = val_main_v44 a4 := entry1_row m ρ c
  rw [e43, e44]
  exact relu1_stage a0 a1 a3 a4

/-- The second product. -/
theorem exit2_product : W7 m ρ c (Proc.devRef .tc main_v46) = val_main_v48 a0 a1 a3 a4 a5 := by
  refine (W7_arr m ρ c 2).trans ((Dense2.array_eq (V6 m ρ) c).trans ?_)
  have e45 : V6 m ρ c main_v45 = val_main_v47 a0 a1 a3 a4 := exit1_layer m ρ c
  have e5 : V6 m ρ c main_arg5 = a5 := exit1_arg5 m ρ c
  rw [e45, e5]; rfl

/-- The second propagation's sums. -/
theorem entry3_sums : W8 m ρ c (Proc.devRef .tc main_v59) = val_main_v61 a0 a1 a3 a4 a5 :=
  agg2_stage (W7 m ρ c) a0 a1 a3 a4 a5 (exit2_src m ρ c) (exit2_dst m ρ c) (exit2_norm m ρ c) (exit2_product m ρ c)

/-- The second bias as one row. -/
theorem entry3_row : W8 m ρ c (Proc.devRef .tc main_v60) = val_main_v62 a6 := by
  refine (row2_stage (W7 m ρ c)).trans ?_
  rw [exit2_arg6 m ρ c]
  exact BiasRelu2.row_eq a6

/-- The second layer's output. -/
theorem exit3_layer : W9 m ρ c (Proc.devRef .tc main_v61) = val_main_v65 a0 a1 a3 a4 a5 a6 := by
  refine (W9_arr m ρ c 2).trans ((BiasRelu2.array_eq (V8 m ρ) c).trans ?_)
  have e59 : V8 m ρ c main_v59 = val_main_v61 a0 a1 a3 a4 a5 := entry3_sums m ρ c
  have e60 : V8 m ρ c main_v60 = val_main_v62 a6 := entry3_row m ρ c
  rw [e59, e60]
  exact relu2_stage a0 a1 a3 a4 a5 a6

/-- THE RESULT: after the last stretch the result buffer holds the reference's last stage of the launch arguments. -/
theorem result_eq : W10 m ρ c (Proc.devRef .tc main_v73) = val_main_v77 a0 a1 a2 a3 a4 a5 a6 :=
  pool_stage (W9 m ρ c) a0 a1 a2 a3 a4 a5 a6 (exit3_arg2 m ρ c) (exit3_layer m ρ c)

end Exact

end Cert.KernelIdeal.Boundary

end
-- ==== Proof.lean ====
/- The certificate of the two-layer graph convolution with mean pooling against its reference, over the extended reals.

   Both programs compute, from the node features X, the edge list, the graph index of each node and the two layers'
   weights and biases: the edge lists with a self-loop per node appended, the degree of each destination, the edge
   weight d(src)^(-1/2) * d(dst)^(-1/2) (zero where the degree is not positive), then twice
       H <- max(S(H W) + b, 0),   S(Y)[v] = sum over the edges e into v of weight(e) * Y[src(e)],
   and last the mean of the rows of H over each graph (the sum divided by max(count, 1)).
   The kernel's program does the two products H W and the two bias-and-maximum steps in four row-blocked regions
   (25 blocks of 2000 rows each) and everything else by the very host operations the reference uses. At the exact
   instance a change of float format is the identity and a matrix product into a zero accumulator is the plain sum
   over the contracted axis, so each region leaves in its output array, whole, what the reference's corresponding
   operation computes from the same operands (the four Region modules); the host stretches in between are the
   reference's operations applied to equal operands (HostStretches); following the program boundary by boundary
   (Boundaries) the kernel's result buffer ends at the reference's composed term of the arguments. No law that needs
   finiteness is used, so the precondition is never opened. The three frames are the generated frames and the
   reference's run with its result dropped; the idealization's ledger is empty. -/
import proofs.«162527_j41489384080024_1_alg».proof.Defs
import proofs.«162527_j41489384080024_1_alg».proof.Proof.Gen.Kernel
import proofs.«162527_j41489384080024_1_alg».proof.Proof.Gen.Kernel.Skeleton
import proofs.«162527_j41489384080024_1_alg».proof.Proof.Gen.Kernel.Launch
import proofs.«162527_j41489384080024_1_alg».proof.Proof.Gen.Kernel.Points
import proofs.«162527_j41489384080024_1_alg».proof.Proof.Gen.Kernel.Frame
import proofs.«162527_j41489384080024_1_alg».proof.Proof.Gen.KernelIdeal
import proofs.«162527_j41489384080024_1_alg».proof.Proof.Gen.KernelIdeal.Skeleton
import proofs.«162527_j41489384080024_1_alg».proof.Proof.Gen.KernelIdeal.Launch
import proofs.«162527_j41489384080024_1_alg».proof.Proof.Gen.KernelIdeal.Points
import proofs.«162527_j41489384080024_1_alg».proof.Proof.Gen.KernelIdeal.Frame
import proofs.«162527_j41489384080024_1_alg».proof.Proof.Gen.ReferenceIdeal
import proofs.«162527_j41489384080024_1_alg».proof.Proof.Gen.Pre_finite_inputs
import proofs.«162527_j41489384080024_1_alg».proof.Proof.RefRun
import proofs.«162527_j41489384080024_1_alg».proof.Proof.RefReadP
import proofs.«162527_j41489384080024_1_alg».proof.Proof.KernelRun
import proofs.«162527_j41489384080024_1_alg».proof.Proof.Boundaries
import Idealize.ShloMosaic.Adequacy
import Idealize.ShloMosaic.Init

noncomputable section

namespace Cert.Proof

open Idealize.ShloMosaic Idealize.SL.Sem

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end with the reference's last stage of the (agreeing) arguments in their result buffers. -/
theorem algebraic : Cert.algebraic_KernelIdeal_ReferenceIdeal := fun m ρ m' ρ' _ hagree =>
  ⟨fun c => Cert.ReferenceIdeal.ReadP.val_main_v77 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
   (θ_run Cert.KernelIdeal.defs _ _).mono
     (fun _ h c => ⟨(h c).1.trans (Cert.KernelIdeal.Boundary.result_eq m ρ c), (h c).2⟩)
     (Cert.KernelIdeal.GenP.run_named (F := Ideal) m ρ),
   (θ_run Cert.ReferenceIdeal.defs _ _).mono
     (fun _ h c => ⟨by
        rw [(h c).1, Cert.ReferenceIdeal.ReadP.val_main_v77_eq, (hagree c).1, (hagree c).2.1, (hagree c).2.2.1, (hagree c).2.2.2.1,
          (hagree c).2.2.2.2.1, (hagree c).2.2.2.2.2.1, (hagree c).2.2.2.2.2.2], (h c).2⟩)
     (Cert.ReferenceIdeal.ValueP.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
